-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S512x128 : Shape := ⟨2, ![512, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S262144x128 .f32) (main_arg1 : FVec F S512x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S262144x128 : Shape := ⟨2, ![262144, 128]⟩
abbrev S512x128 : Shape := ⟨2, ![512, 128]⟩
abbrev S_ : Shape := ⟨0, ![]⟩
abbrev S512 : Shape := ⟨1, ![512]⟩
abbrev S512x1 : Shape := ⟨2, ![512, 1]⟩
abbrev S262144x512 : Shape := ⟨2, ![262144, 512]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩

abbrev nBuf : Space → Nat
  | .hbm => 14
  | .vmem => 5
  | .smem => 0
  | _ => 0

abbrev bufTy : (tb : Table) → Fin (tcTables nBuf tb) → BufTy
  | .hbm, ⟨0, _⟩ => ⟨S262144x128, .f32⟩
  | .hbm, ⟨1, _⟩ => ⟨S512x128, .f32⟩
  | .hbm, ⟨2, _⟩ => ⟨S512x128, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x128, .f32⟩
  | .hbm, ⟨11, _⟩ => ⟨S512x128, .f32⟩
  | .hbm, ⟨12, _⟩ => ⟨S512x128, .bf16⟩
  | .hbm, ⟨13, _⟩ => ⟨S262144x512, .f32⟩
  | .local _ .vmem, ⟨0, _⟩ => ⟨S2048x128, .f32⟩
  | .local _ .vmem, ⟨1, _⟩ => ⟨S2048x128, .f32⟩
  | .local _ .vmem, ⟨2, _⟩ => ⟨S512x128, .bf16⟩
  | .local _ .vmem, ⟨3, _⟩ => ⟨S2048x512, .f32⟩
  | .local _ .vmem, ⟨4, _⟩ => ⟨S2048x512, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S512x128_S512_d1 : S512x128.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S2048x128_S2048 : S2048x128.Reduces [1] S2048
  shapeCasts_S2048_S2048x1 : S2048.ShapeCasts S2048x1
  broadcasts_S2048x1_S2048x128 : S2048x1.Broadcasts S2048x128
  reduces_S2048x512_S2048 : S2048x512.Reduces [1] S2048
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S2048x128_S512x128_S2048x512_1_1_0_0_n_n_wf : DotDims.WF S2048x128 S512x128 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S262144x512.size a
  hwx0_2 : ∀ i : grid0.Coords, EltTy.bits .f32 = 32 ∨ (Rect.block (s := S262144x512) S2048x512.size (cc0_transform_2 i) (hinb0_2 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x128 : Shape := ⟨2, ![262144, 128]⟩
abbrev S512x128 : Shape := ⟨2, ![512, 128]⟩
abbrev S_ : Shape := ⟨0, ![]⟩
abbrev S262144 : Shape := ⟨1, ![262144]⟩
abbrev S262144x1 : Shape := ⟨2, ![262144, 1]⟩
abbrev S512 : Shape := ⟨1, ![512]⟩
abbrev S512x1 : Shape := ⟨2, ![512, 1]⟩
abbrev S262144x512 : Shape := ⟨2, ![262144, 512]⟩

abbrev nBuf : Space → Nat
  | .hbm => 37
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S512x128, .f32⟩
  | .hbm, ⟨2, _⟩ => ⟨S262144x128, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S262144x1, .f32⟩
  | .hbm, ⟨7, _⟩ => ⟨S_, .f32⟩
  | .hbm, ⟨8, _⟩ => ⟨S262144x1, .f32⟩
  | .hbm, ⟨9, _⟩ => ⟨S262144x1, .f32⟩
  | .hbm, ⟨10, _⟩ => ⟨S262144x128, .f32⟩
  | .hbm, ⟨11, _⟩ => ⟨S262144x128, .f32⟩
  | .hbm, ⟨12, _⟩ => ⟨S512x128, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x128, .f32⟩
  | .hbm, ⟨21, _⟩ => ⟨S512x128, .f32⟩
  | .hbm, ⟨22, _⟩ => ⟨S262144x512, .f32⟩
  | .hbm, ⟨23, _⟩ => ⟨S_, .f32⟩
  | .hbm, ⟨24, _⟩ => ⟨S262144, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S262144x1, .f32⟩
  | .hbm, ⟨29, _⟩ => ⟨S262144x512, .f32⟩
  | .hbm, ⟨30, _⟩ => ⟨S262144x512, .f32⟩
  | .hbm, ⟨31, _⟩ => ⟨S262144x512, .f32⟩
  | .hbm, ⟨32, _⟩ => ⟨S_, .f32⟩
  | .hbm, ⟨33, _⟩ => ⟨S262144, .f32⟩
  | .hbm, ⟨34, _⟩ => ⟨S262144x1, .f32⟩
  | .hbm, ⟨35, _⟩ => ⟨S262144x512, .f32⟩
  | .hbm, ⟨36, _⟩ => ⟨S262144x512, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x128_0_1 : S262144x1.BroadcastsInDim S262144x128 (![0, 1] : Fin 2 → Fin S262144x128.rank)
  reducesTo_S512x128_S512_d1 : S512x128.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  reducesTo_S262144x512_S262144_d1 : S262144x512.ReducesTo [1] S262144
  bcast_S_S262144 : S_.BroadcastsInDim S262144 (![] : Fin 0 → Fin S262144.rank)
  bcast_S262144x1_S262144x512_0_1 : S262144x1.BroadcastsInDim S262144x512 (![0, 1] : Fin 2 → Fin S262144x512.rank)
  dot_S262144x128_S512x128_S262144x512_1_1_0_0_n_n_wf : DotDims.WF S262144x128 S512x128 S262144x512 [1] [1] [0] [0] [] []

variable [Facts₀]

def dot_S262144x128_S512x128_S262144x512_1_1_0_0_n_n : DotDims S262144x128 S512x128 S262144x512 where
  lhsContracting := [1]
  rhsContracting := [1]
  lhsNonContracting := [0]
  rhsNonContracting := [0]
  lhsBatch := []
  rhsBatch := []
  wf := dot_S262144x128_S512x128_S262144x512_1_1_0_0_n_n_wf

class Facts : Prop extends Facts₀ where

variable [Facts]
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibDotT.lean ====
/-
  A product with output-major weights,  a · wᵀ,  read at (row, column), at the ideal values and for
  any sizes.

  The weights `w` are stored M × K (one row per OUTPUT feature); the operand `a` is N × K. Two spellings
  of the same product:
  * the kernel's: one matrix product contracting axis 1 of BOTH operands (the right operand on its
    last axis) into a zero accumulator;
  * the host's: the weights transposed to K × M first, then a plain product contracting the left
    operand's axis 1 with the transposed weights' axis 0.
  At (i, j) each is the one sum  ∑ₖ a (i, k) · w (j, k).  The statements hold for every row count, so
  the same lemma reads a block of rows and the whole array.
-/
import proofs.«429801_j65927747994107_3_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.Rows

open Idealize.ShloMosaic Idealize.ShloMosaic.ValueIdx

variable {N K M : ℕ}

/-! ## The operand indices of a product whose right operand is contracted on its last axis -/

/-- The left operand's row is the result's row. -/
theorem trhs_lhs_0 (i : (⟨2, ![N, M]⟩ : Shape).Idx) (q : (DotDims.transposedRhs N K M).contr.Idx) :
    ((DotDims.transposedRhs N K M).lhsIdx i q 0).val = (i 0).val := by
  unfold DotDims.lhsIdx
  rw [dif_neg (show ¬(0 : Fin (⟨2, ![N, K]⟩ : Shape).rank) ∈ (DotDims.transposedRhs N K M).lhsBatch from List.not_mem_nil),
    dif_pos (show (0 : Fin (⟨2, ![N, K]⟩ : Shape).rank) ∈ (DotDims.transposedRhs N K M).lhsNonContracting from List.mem_singleton.mpr rfl)]
  rfl

/-- The left operand's column is the contraction coordinate. -/
theorem trhs_lhs_1 (i : (⟨2, ![N, M]⟩ : Shape).Idx) (q : (DotDims.transposedRhs N K M).contr.Idx) :
    ((DotDims.transposedRhs N K M).lhsIdx i q 1).val = (q ⟨0, Nat.one_pos⟩).val :=
  (DotDims.transposedRhs N K M).lhsIdx_val_of_single rfl i q

/-- The right operand's row is the result's column. -/
theorem trhs_rhs_0 (i : (⟨2, ![N, M]⟩ : Shape).Idx) (q : (DotDims.transposedRhs N K M).contr.Idx) :
    ((DotDims.transposedRhs N K M).rhsIdx i q 0).val = (i 1).val := by
  unfold DotDims.rhsIdx
  rw [dif_neg (show ¬(0 : Fin (⟨2, ![M, K]⟩ : Shape).rank) ∈ (DotDims.transposedRhs N K M).rhsBatch from List.not_mem_nil),
    dif_pos (show (0 : Fin (⟨2, ![M, K]⟩ : Shape).rank) ∈ (DotDims.transposedRhs N K M).rhsNonContracting from List.mem_singleton.mpr rfl)]
  rfl

/-- The right operand's column is the contraction coordinate. -/
theorem trhs_rhs_1 (i : (⟨2, ![N, M]⟩ : Shape).Idx) (q : (DotDims.transposedRhs N K M).contr.Idx) :
    ((DotDims.transposedRhs N K M).rhsIdx i q 1).val = (q ⟨0, Nat.one_pos⟩).val :=
  (DotDims.transposedRhs N K M).rhsIdx_val_of_single rfl i q

/-- The sum over the one contracted axis, re-indexed by its coordinate: the right operand is read at (column, k). -/
theorem trhs_sum {φ₁ φ₂ : FTy} (l : FVec Ideal ⟨2, ![N, K]⟩ φ₁) (r : FVec Ideal ⟨2, ![M, K]⟩ φ₂) (i : Fin N) (j : Fin M) :
    (∑ q : (DotDims.transposedRhs N K M).contr.Idx,
        l ((DotDims.transposedRhs N K M).lhsIdx (ix2 i j) q) * r ((DotDims.transposedRhs N K M).rhsIdx (ix2 i j) q))
      = ∑ k : Fin K, l (ix2 i k) * r (ix2 j k) := by
  rw [← Equiv.sum_comp (contrEquiv1 (DotDims.transposedRhs N K M) K rfl rfl).symm]
  refine Finset.sum_congr rfl fun k _ => ?_
  have hk := contrEquiv1_symm_val (DotDims.transposedRhs N K M) K rfl rfl k
  have el : (DotDims.transposedRhs N K M).lhsIdx (ix2 i j) ((contrEquiv1 (DotDims.transposedRhs N K M) K rfl rfl).symm k) = ix2 i k :=
    funext fun a => Fin.ext (by
      match a with
      | ⟨0, _⟩ => exact trhs_lhs_0 _ _
      | ⟨1, _⟩ => exact (trhs_lhs_1 _ _).trans hk)
  have er : (DotDims.transposedRhs N K M).rhsIdx (ix2 i j) ((contrEquiv1 (DotDims.transposedRhs N K M) K rfl rfl).symm k) = ix2 j k :=
    funext fun a => Fin.ext (by
      match a with
      | ⟨0, _⟩ => exact trhs_rhs_0 _ _
      | ⟨1, _⟩ => exact (trhs_rhs_1 _ _).trans hk)
  rw [el, er]

/-! ## The two spellings at (row, column) -/

/-- The kernel's spelling: a product contracting axis 1 of both operands into a zero accumulator, at (i, j), is
    ∑ₖ l (i,k) · r (j,k) — whatever the operands' float formats. -/
theorem matmul_trhs_apply {φ₁ φ₂ : FTy} (l : FVec Ideal ⟨2, ![N, K]⟩ φ₁) (r : FVec Ideal ⟨2, ![M, K]⟩ φ₂) (i : Fin N) (j : Fin M) :
    matmul (DotDims.transposedRhs N K M) none l r (constant ⟨2, ![N, M]⟩ .f32 0x00000000#32) (ix2 i j)
      = ∑ k : Fin K, l (ix2 i k) * r (ix2 j k) := by
  show FloatOps.matmul (DotDims.transposedRhs N K M) none l r (constant ⟨2, ![N, M]⟩ .f32 0x00000000#32) (ix2 i j) = _
  rw [Ideal.matmul_constant_zero_apply]
  exact trhs_sum l r i j

/-- The host's spelling: the weights transposed, then the plain product, at (i, j): the same sum. -/
theorem dotGeneral_transpose_apply (l : FVec Ideal ⟨2, ![N, K]⟩ .f32) (w : FVec Ideal ⟨2, ![M, K]⟩ .f32)
    (tr : (⟨2, ![M, K]⟩ : Shape).Transposes [1, 0] ⟨2, ![K, M]⟩) (i : Fin N) (j : Fin M) :
    Host.dotGeneral (DotDims.plain N K M) none l (transpose ⟨2, ![K, M]⟩ [1, 0] w tr) (ix2 i j)
      = ∑ k : Fin K, l (ix2 i k) * w (ix2 j k) := by
  rw [dotGeneral_plain_apply]
  exact Finset.sum_congr rfl fun k _ => by rw [transpose_ix2_apply]

end Idealize.ShloMosaic.Rows

end
-- ==== Proof.LibCosineSoftmax.lean ====
/-
  Cosine similarity of every row of an array against a table of class prototypes, then a softmax
  over the classes: row by row, at the ideal values, for any sizes.

  * `unitRow b v`: the vector `v` divided by its Euclidean length, the length clamped below by the
    value of the word `b`:  v d / max (√(∑ₑ v e · v e)) b.
  * `dots w u`: the inner products of `u` with every row of the table `w`:  k ↦ ∑_d u d · w (k,d).
  * `softmaxRow s`: k ↦ exp (s k − max s) / ∑ⱼ exp (s j − max s), the maximum folded from −∞.

  Each is read off the kernel's spelling (lane reductions, a unit axis added and broadcast, a product
  contracting the last axis of both operands into a zero accumulator) and off the host's
  (`reduce`, two `broadcast_in_dim`s, `dot_general`), as arrays of rows. The statements hold for
  every row count, so one lemma reads a block of rows and the whole array.
-/
import proofs.«429801_j65927747994107_3_alg».proof.Proof.LibRows
import proofs.«429801_j65927747994107_3_alg».proof.Proof.LibDotT
import Mathlib.Data.Finset.Fold

noncomputable section

namespace Idealize.ShloMosaic.Rows

open Idealize.ShloMosaic Idealize.ShloMosaic.ValueIdx

variable {N D K M : ℕ}

/-! ## More layers read row by row -/

theorem sqrt_rows (x : FVec Ideal ⟨2, ![N, K]⟩ .f32) : sqrt x = ofRows fun i k => Ideal.sqrt (rowOf x i k) :=
  ext_ix2 fun _ _ => rfl

theorem hsqrt_rows (x : FVec Ideal ⟨2, ![N, K]⟩ .f32) : Host.sqrt x = ofRows fun i k => Ideal.sqrt (rowOf x i k) :=
  ext_ix2 fun _ _ => rfl

/-- A column (one entry per row) laid along every row, the kernel's way. -/
theorem kspread_eq (a : FVec Ideal ⟨2, ![N, 1]⟩ .f32) (bc : (⟨2, ![N, 1]⟩ : Shape).Broadcasts ⟨2, ![N, M]⟩) :
    broadcastTo ⟨2, ![N, M]⟩ a bc = ofRows fun i _ => a (ix2 i (0 : Fin 1)) := by
  refine ext_ix2 fun i j => ?_
  exact broadcastTo_apply a bc (ix2 i j) (ix2 i (0 : Fin 1)) (by
    intro b
    match b with
    | ⟨0, _⟩ =>
      show i.val = if N = 1 then 0 else i.val
      split
      · have := i.isLt; omega
      · rfl
    | ⟨1, _⟩ => rfl)

/-- A column laid along every row, the host's way. -/
theorem hspread_eq (a : FVec Ideal ⟨2, ![N, 1]⟩ .f32) (b2 : (⟨2, ![N, 1]⟩ : Shape).BroadcastsInDim ⟨2, ![N, M]⟩ ![0, 1]) :
    broadcastInDim ⟨2, ![N, M]⟩ ![0, 1] b2 a = ofRows fun i _ => a (ix2 i (0 : Fin 1)) := by
  refine ext_ix2 fun i j => ?_
  exact broadcastInDim_apply ![0, 1] b2 a (ix2 i j) (ix2 i (0 : Fin 1)) (by
    intro b
    match b with
    | ⟨0, _⟩ =>
      show i.val = if N = 1 then 0 else i.val
      split
      · have := i.isLt; omega
      · rfl
    | ⟨1, _⟩ => rfl)

/-- One value per row given a unit feature axis, the host's way. -/
theorem hcol1_eq (c : FVec Ideal ⟨1, ![N]⟩ .f32) (b1 : (⟨1, ![N]⟩ : Shape).BroadcastsInDim ⟨2, ![N, 1]⟩ ![0]) :
    broadcastInDim ⟨2, ![N, 1]⟩ ![0] b1 c = ofRows fun i _ => valOf c i := by
  refine ext_ix2 fun i j => ?_
  exact broadcastInDim_apply ![0] b1 c (ix2 i j) (ix1 i) (by
    intro b
    match b with
    | ⟨0, _⟩ =>
      show i.val = if N = 1 then 0 else i.val
      split
      · have := i.isLt; omega
      · rfl)

/-- The host's product contracting the last axis of both operands, at (i, j): ∑ₖ l (i,k) · r (j,k). -/
theorem dotGeneral_trhs_apply (l : FVec Ideal ⟨2, ![N, K]⟩ .f32) (r : FVec Ideal ⟨2, ![M, K]⟩ .f32) (i : Fin N) (j : Fin M) :
    Host.dotGeneral (DotDims.transposedRhs N K M) none l r (ix2 i j) = ∑ k : Fin K, l (ix2 i k) * r (ix2 j k) := by
  show FloatOps.dotGeneral (DotDims.transposedRhs N K M) none .single l r (ix2 i j) = _
  rw [Ideal.dotGeneral_apply]
  exact trhs_sum l r i j

/-! ## A row divided by its clamped length -/

/-- `v` over its Euclidean length, the length clamped below by the value of the word `b`. -/
def unitRow (b : BitVec 32) (v : Fin D → EReal) : Fin D → EReal :=
  fun d => Ideal.div (v d) (max (Ideal.sqrt (∑ e : Fin D, v e * v e)) (Ideal.ofBits .f32 b))

/-- The kernel's spelling: the lane sum of squares, a unit axis, the root, the clamp against a splat, the column
    broadcast along the row, the quotient. -/
theorem knormalize_eq (x : FVec Ideal ⟨2, ![N, D]⟩ .f32) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩) :
    divf x (broadcastTo ⟨2, ![N, D]⟩
        (maximumf (sqrt (shapeCast ⟨2, ![N, 1]⟩ (multiReduction .add [1] ⟨1, ![N]⟩ (mulf x x) 0x00000000#32 h hφ hacc) sc))
          (broadcast ⟨2, ![N, 1]⟩ (Scalar.ofBits (F := Ideal) .f32 b))) bc)
      = ofRows fun i => unitRow b (rowOf x i) := by
  rw [mulf_rows, ksum_eq, kcol1_eq, sqrt_rows, maximumf_rows, kspread_eq, divf_rows]
  rfl

/-- The host's spelling: `reduce` from zero, `broadcast_in_dim` to a column, the root, the clamp against a broadcast
    constant, `broadcast_in_dim` along the row, the quotient. -/
theorem hnormalize_eq (x : FVec Ideal ⟨2, ![N, D]⟩ .f32) (b : BitVec 32)
    (h' : (⟨2, ![N, D]⟩ : Shape).ReducesTo [1] ⟨1, ![N]⟩) (h : (⟨2, ![N, D]⟩ : Shape).Reduces [1] ⟨1, ![N]⟩)
    (hu : 0 < (⟨0, ![]⟩ : Shape).numel)
    (b1 : (⟨1, ![N]⟩ : Shape).BroadcastsInDim ⟨2, ![N, 1]⟩ ![0])
    (b0 : (⟨0, ![]⟩ : Shape).BroadcastsInDim ⟨2, ![N, 1]⟩ ![])
    (b2 : (⟨2, ![N, 1]⟩ : Shape).BroadcastsInDim ⟨2, ![N, D]⟩ ![0, 1]) :
    Host.divf x (broadcastInDim ⟨2, ![N, D]⟩ ![0, 1] b2
        (maximumf (Host.sqrt (broadcastInDim ⟨2, ![N, 1]⟩ ![0] b1
            (Host.reduceAdd (mulf x x) (constant (F := Ideal) ⟨0, ![]⟩ .f32 0x00000000#32) h' hu)))
          (broadcastInDim ⟨2, ![N, 1]⟩ ![] b0 (constant (F := Ideal) ⟨0, ![]⟩ .f32 b))))
      = ofRows fun i => unitRow b (rowOf x i) := by
  rw [mulf_rows, hsum_eq _ h' h hu, hcol1_eq, hsqrt_rows, maximumf_rows, hspread_eq, hdivf_rows]
  rfl

/-! ## Inner products with every row of a table -/

/-- The inner products of `u` with the rows of `w`. -/
def dots (w : (⟨2, ![K, D]⟩ : Shape).Idx → EReal) (u : Fin D → EReal) : Fin K → EReal :=
  fun k => ∑ d : Fin D, u d * w (ix2 k d)

/-- The kernel's spelling, whatever the operands' float formats. -/
theorem kdots_eq {φ₁ φ₂ : FTy} (a : FVec Ideal ⟨2, ![N, D]⟩ φ₁) (w : FVec Ideal ⟨2, ![K, D]⟩ φ₂) :
    matmul (DotDims.transposedRhs N D K) none a w (constant ⟨2, ![N, K]⟩ .f32 0x00000000#32)
      = ofRows fun i => dots w fun d => a (ix2 i d) :=
  ext_ix2 fun i j => by rw [matmul_trhs_apply]; rfl

/-- The host's spelling. -/
theorem hdots_eq (a : FVec Ideal ⟨2, ![N, D]⟩ .f32) (w : FVec Ideal ⟨2, ![K, D]⟩ .f32) :
    Host.dotGeneral (DotDims.transposedRhs N D K) none a w = ofRows fun i => dots w (rowOf a i) :=
  ext_ix2 fun i j => by rw [dotGeneral_trhs_apply]; rfl

/-- The kernel's cosine scores: the rows divided by their clamped lengths, changed to a narrower float format (no change
    at the ideal values), multiplied with the table. -/
theorem kcosine_eq {φ₂ : FTy} (x : FVec Ideal ⟨2, ![N, D]⟩ .f32) (w : FVec Ideal ⟨2, ![K, D]⟩ φ₂) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩)
    (hb : FTy.bits .bf16 < FTy.bits .f32) :
    matmul (DotDims.transposedRhs N D K) none
        (truncf .bf16 (divf x (broadcastTo ⟨2, ![N, D]⟩
          (maximumf (sqrt (shapeCast ⟨2, ![N, 1]⟩ (multiReduction .add [1] ⟨1, ![N]⟩ (mulf x x) 0x00000000#32 h hφ hacc) sc))
            (broadcast ⟨2, ![N, 1]⟩ (Scalar.ofBits (F := Ideal) .f32 b))) bc)) hb)
        w (constant ⟨2, ![N, K]⟩ .f32 0x00000000#32)
      = ofRows fun i => dots w (unitRow b (rowOf x i)) := by
  rw [kdots_eq, knormalize_eq]
  rfl

/-- The host's cosine scores: both operands' rows divided by their clamped lengths, then the product. -/
theorem hcosine_eq (x : FVec Ideal ⟨2, ![N, D]⟩ .f32) (mu : FVec Ideal ⟨2, ![K, D]⟩ .f32) (b : BitVec 32) :
    Host.dotGeneral (DotDims.transposedRhs N D K) none (ofRows fun i => unitRow b (rowOf x i)) (ofRows fun k => unitRow b (rowOf mu k))
      = ofRows fun i => dots (ofRows fun k => unitRow b (rowOf mu k)) (unitRow b (rowOf x i)) := by
  rw [hdots_eq]
  rfl

/-! ## Softmax along a row -/

/-- The softmax of a row, shifted by its maximum. -/
def softmaxRow (s : Fin K → EReal) : Fin K → EReal :=
  fun k => Ideal.div (Ideal.exp (s k - rowMax s)) (∑ j : Fin K, Ideal.exp (s j - rowMax s))

/-- The fold of `max` is at least the value it starts from. -/
theorem max_init_rowMax (v : Fin M → EReal) : max (Ideal.ofBits .f32 0xFF800000#32) (rowMax v) = rowMax v :=
  max_eq_right ((Finset.le_fold_max _).mpr (Or.inl le_rfl))

/-- The kernel's numerator: exp of the row shifted by its lane maximum. -/
theorem kexpshift_eq (s : FVec Ideal ⟨2, ![N, K]⟩ .f32)
    (h : (⟨2, ![N, K]⟩ : Shape).Reduces [1] ⟨1, ![N]⟩) (hφ : FKind.Formats .f32)
    (hacc : (0xFF800000#32 : BitVec 32) = FKind.maximumf.neutral .f32 hφ)
    (sc : (⟨1, ![N]⟩ : Shape).ShapeCasts ⟨2, ![N, 1]⟩) (bc : (⟨2, ![N, 1]⟩ : Shape).Broadcasts ⟨2, ![N, K]⟩) :
    exp (subf s (broadcastTo ⟨2, ![N, K]⟩
        (shapeCast ⟨2, ![N, 1]⟩ (multiReduction .maximumf [1] ⟨1, ![N]⟩ s 0xFF800000#32 h hφ hacc) sc) bc))
      = ofRows fun i k => Ideal.exp (rowOf s i k - rowMax (rowOf s i)) := by
  rw [kmax_eq, kcol_eq, subf_rows, exp_rows]
  rfl

/-- The kernel's quotient by the lane sum. -/
theorem kdivsum_eq (v e : FVec Ideal ⟨2, ![N, K]⟩ .f32)
    (h : (⟨2, ![N, K]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, K]⟩) :
    divf v (broadcastTo ⟨2, ![N, K]⟩
        (shapeCast ⟨2, ![N, 1]⟩ (multiReduction .add [1] ⟨1, ![N]⟩ e 0x00000000#32 h hφ hacc) sc) bc)
      = ofRows fun i k => Ideal.div (rowOf v i k) (∑ j : Fin K, rowOf e i j) := by
  rw [ksum_eq, kcol_eq, divf_rows]
  rfl

/-- The host's numerator: the row maximum from −∞, joined once more with −∞, broadcast in two steps, subtracted,
    exponentiated. -/
theorem hexpshift_eq (s : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b0 : (⟨0, ![]⟩ : Shape).BroadcastsInDim ⟨1, ![N]⟩ ![])
    (b1 : (⟨1, ![N]⟩ : Shape).BroadcastsInDim ⟨2, ![N, 1]⟩ ![0])
    (b2 : (⟨2, ![N, 1]⟩ : Shape).BroadcastsInDim ⟨2, ![N, K]⟩ ![0, 1]) :
    Host.exp (subf s (broadcastInDim ⟨2, ![N, K]⟩ ![0, 1] b2 (broadcastInDim ⟨2, ![N, 1]⟩ ![0] b1
        (maximumf (broadcastInDim ⟨1, ![N]⟩ ![] b0 (constant (F := Ideal) ⟨0, ![]⟩ .f32 0xFF800000#32))
          (Host.reduce FloatOps.maximumf s (constant (F := Ideal) ⟨0, ![]⟩ .f32 0xFF800000#32) h' hu)))))
      = ofRows fun i k => Ideal.exp (rowOf s i k - rowMax (rowOf s i)) := by
  rw [hmax_eq s h' h hu, maximumf_vals, hcol_eq, subf_rows, hexp_rows]
  refine ext_ix2 fun i k => ?_
  show Ideal.exp (s (ix2 i k) - max (Ideal.ofBits .f32 0xFF800000#32) (rowMax (rowOf s i))) = _
  rw [max_init_rowMax]
  rfl

/-- The host's quotient by the row sum. -/
theorem hdivsum_eq (v e : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b1 : (⟨1, ![N]⟩ : Shape).BroadcastsInDim ⟨2, ![N, 1]⟩ ![0])
    (b2 : (⟨2, ![N, 1]⟩ : Shape).BroadcastsInDim ⟨2, ![N, K]⟩ ![0, 1]) :
    Host.divf v (broadcastInDim ⟨2, ![N, K]⟩ ![0, 1] b2 (broadcastInDim ⟨2, ![N, 1]⟩ ![0] b1
        (Host.reduceAdd e (constant (F := Ideal) ⟨0, ![]⟩ .f32 0x00000000#32) h' hu)))
      = ofRows fun i k => Ideal.div (rowOf v i k) (∑ j : Fin K, rowOf e i j) := by
  rw [hsum_eq e h' h hu, hcol_eq, hdivf_rows]
  rfl

/-- Numerator over its row sum is the softmax of the row. -/
theorem softmax_of_expshift (s : FVec Ideal ⟨2, ![N, K]⟩ .f32) :
    (ofRows fun i k => Ideal.div (rowOf (ofRows fun i k => Ideal.exp (rowOf s i k - rowMax (rowOf s i))) i k)
        (∑ j : Fin K, rowOf (ofRows fun i k => Ideal.exp (rowOf s i k - rowMax (rowOf s i))) i j))
      = (ofRows fun i => softmaxRow (rowOf s i) : FVec Ideal ⟨2, ![N, K]⟩ .f32) := rfl

/-! ## The whole operator -/

/-- Row `n` of the result: the softmax over the classes of the cosine similarities of row `n` of `x` with the rows of
    `mu`, every length clamped below by the value of the word `b`. -/
def cosineSoftmax (b : BitVec 32) (x : FVec Ideal ⟨2, ![N, D]⟩ .f32) (mu : FVec Ideal ⟨2, ![K, D]⟩ .f32) :
    FVec Ideal ⟨2, ![N, K]⟩ .f32 :=
  ofRows fun n => softmaxRow (dots (ofRows fun k => unitRow b (rowOf mu k)) (unitRow b (rowOf x n)))

end Idealize.ShloMosaic.Rows

end
-- ==== Proof.KernelBlock.lean ====
/-
  What one grid point computes. The body stores exp (s − max s) for its block of scores, loads it back and stores
  it again divided by its row sums, so the point leaves the second store's payload over the first store's value; at
  the ideal values that is, row by row, the softmax of the cosine similarities of the block's rows with the
  prototypes it was handed (already divided by their clamped lengths).
-/
import proofs.«429801_j65927747994107_3_alg».proof.Proof.Gen.KernelIdeal.Value
import proofs.«429801_j65927747994107_3_alg».proof.Proof.LibCosineSoftmax
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.KernelIdeal.Value Idealize.ShloMosaic.Rows Idealize.ShloMosaic.ValueIdx

variable {F : FTy → Type} [FloatOps F]

theorem hz : (![0, 0] : Fin 2 → Nat) = fun _ => 0 := funext fun a => by fin_cases a <;> rfl

/-- Both stores write the whole block, the later one over the earlier, and the value loaded between them is the
    earlier store's: the point leaves the quotient payload of the exponential payload. -/
theorem out_eq (c : Dev nD) (i : grid0.Coords) (arg1 : Memref sig .tc .vmem S2048x128 .f32) (harg1 : arg1.IsWhole) (arg2 : Memref sig .tc .vmem S512x128 .bf16) (harg2 : arg2.IsWhole) (arg3 : Memref sig .tc .vmem S2048x512 .f32) (harg3 : arg3.IsWhole)
    (x0 : Vec F S2048x128 .f32) (x1 : Vec F S512x128 .bf16) :
    out0_A_2 c i arg1 harg1 arg2 harg2 arg3 harg3 x0 x1 = k0_pay2 x0 x1 (k0_pay1 x0 x1) := by
  unfold out0_A_2
  rw [View.read_writes_eq_canon _ _ _ (cover0_A_2 c i arg1 harg1 arg2 harg2 arg3 harg3 x0 x1)]
  unfold kernelRun0_A
  dsimp only
  sl_unfold_words
  rw [View.canon_cons_unit_zero (S := S2048x512) hz, View.readCov_unit_zero (S := S2048x512) _ hz]
  simp only [View.readAt_eq_ld, harg1.read_unread, harg2.read_unread, View.ld_unit_zero (S := S2048x128) hz, View.ld_unit_zero (S := S512x128) hz]

/-- The printed contraction is the one over the last axis of both operands. -/
theorem dot_eq : dot_S2048x128_S512x128_S2048x512_1_1_0_0_n_n = DotDims.transposedRhs 2048 128 512 := rfl

/-- Row `p` of a block's scores: the inner products of the row, over its clamped length, with the table's rows. -/
abbrev scoreRow (x0 : Vec Ideal S2048x128 .f32) (x1 : Vec Ideal S512x128 .bf16) (p : Fin 2048) : Fin 512 → EReal :=
  dots x1 (unitRow 0x322BCC77#32 (rowOf x0 p))

-- the printed reductions carry proofs about their initial words typed at the words themselves
set_option backward.isDefEq.respectTransparency.types false in
/-- The first store's payload: exp of each row of scores shifted by its maximum. -/
theorem pay1_rows (x0 : Vec Ideal S2048x128 .f32) (x1 : Vec Ideal S512x128 .bf16) :
    k0_pay1 (F := Ideal) x0 x1 = ofRows fun p k => Ideal.exp (scoreRow x0 x1 p k - rowMax (scoreRow x0 x1 p)) := by
  unfold k0_pay1
  dsimp only
  rw [shapeCast_self, dot_eq, kcosine_eq, kexpshift_eq]
  rfl

set_option backward.isDefEq.respectTransparency.types false in
/-- The second store's payload: what was loaded, each row over the row sum of the first payload. -/
theorem pay2_rows (x0 : Vec Ideal S2048x128 .f32) (x1 : Vec Ideal S512x128 .bf16) (v21 : Vec Ideal S2048x512 .f32) :
    k0_pay2 (F := Ideal) x0 x1 v21 = ofRows fun p k => Ideal.div (rowOf v21 p k) (∑ j : Fin 512, rowOf (k0_pay1 (F := Ideal) x0 x1) p j) := by
  unfold k0_pay2
  dsimp only
  rw [shapeCast_self, kdivsum_eq]

/-- So a point leaves, row by row, the softmax of its block's scores. -/
theorem block_rows (x0 : Vec Ideal S2048x128 .f32) (x1 : Vec Ideal S512x128 .bf16) :
    k0_pay2 (F := Ideal) x0 x1 (k0_pay1 (F := Ideal) x0 x1) = ofRows fun p => softmaxRow (scoreRow x0 x1 p) := by
  rw [pay2_rows, pay1_rows]
  rfl

end Cert.KernelIdeal.Block

end
-- ==== Proof.KernelWhole.lean ====
/-
  From the grid points to the whole array. Point `t` of the 128 is handed rows 2048·t … 2048·t + 2047 of the first
  operand and the whole table of prototypes, which @main has already divided row by row by their clamped lengths, and
  writes rows 2048·t … 2048·t + 2047 of the result; the row blocks tile the result, so after the run it holds the
  operator `cosineSoftmax` of the two arguments.
-/
import proofs.«429801_j65927747994107_3_alg».proof.Proof.KernelBlock

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Block
open Idealize.ShloMosaic.Rows Idealize.ShloMosaic.ValueIdx

variable (m : (ℓ : Loc nD τ sig) → Buf (Elt Ideal) ℓ) (ρ : Dev nD → PrngReg)

/-- The printed index maps over the grid: point `t` takes row block `t` of the first operand, the one block of the
    table, and row block `t` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the first operand's block at point `t` is row 2048·t + p of the argument. -/
theorem xblk_row (c : Dev nD) (t : Fin cfg0.N) (p : Fin 2048) (n : Fin 262144) (hn : n.val = 2048 * t.val + p.val) :
    rowOf (iblk m c 0 t : Vec Ideal S2048x128 .f32) p
      = rowOf (m ((c : Thread nD τ).loc main_arg0) : Vec Ideal S262144x128 .f32) n := by
  obtain ⟨e00, e01, -⟩ := idx_facts t
  funext d
  unfold rowOf iblk
  rw [View.read_apply]
  show V m c main_arg0 _ = _
  rw [V_main_arg0]
  congr 1
  funext a
  apply Fin.ext
  match a with
  | ⟨0, _⟩ => show win0_0.index t (0 : Fin 2) * 2048 + 1 * p.val = n.val; rw [e00, hn]; omega
  | ⟨1, _⟩ => show win0_0.index t (1 : Fin 2) * 128 + 1 * d.val = d.val; rw [e01]; omega

/-- The table's block at every point is the whole table as the region finds it. -/
theorem wblk_eq (c : Dev nD) (t : Fin cfg0.N) :
    (iblk m c 1 t : Vec Ideal S512x128 .bf16) = (V m c main_v8 : Vec Ideal S512x128 .bf16) := by
  obtain ⟨-, -, e10, e11, -⟩ := idx_facts t
  funext y
  unfold iblk
  rw [View.read_apply]
  show V m c main_v8 _ = V m c main_v8 y
  congr 1
  funext a
  apply Fin.ext
  match a with
  | ⟨0, _⟩ => show win0_1.index t (0 : Fin 2) * 512 + 1 * (y 0).val = (y 0).val; rw [e10]; omega
  | ⟨1, _⟩ => show win0_1.index t (1 : Fin 2) * 128 + 1 * (y 1).val = (y 1).val; rw [e11]; omega

/-- The table the region finds: @main's host operations before the call divide every prototype by its clamped length
    (and change the float format, which is no change at the ideal values). -/
theorem table_eq (c : Dev nD) :
    (V m c main_v8 : S512x128.Idx → EReal)
      = ofRows fun k => unitRow 0x322BCC77#32 (rowOf (m ((c : Thread nD τ).loc main_arg1) : Vec Ideal S512x128 .f32) k) := by
  dsimp only [Gen.V, Gen.hostOps0]
  after_results
  exact hnormalize_eq (m ((c : Thread nD τ).loc main_arg1)) 0x322BCC77#32 reducesTo_S512x128_S512_d1 (by decide) h_S_
    bcast_S512_S512x1_0 bcast_S_S512x1 bcast_S512x1_S512x128_0_1

/-- WHAT POINT `t` WRITES BACK is block `t` of the operator of the two arguments. -/
theorem flushed_eq (c : Dev nD) (t : Fin cfg0.N) :
    (dats m 0 c).flushed 2 t = ((cfg0.win 2).blk t).view.read (Elt Ideal)
      (cosineSoftmax 0x322BCC77#32 (m ((c : Thread nD τ).loc main_arg0)) (m ((c : Thread nD τ).loc main_arg1))) := by
  rw [Value.flushed2_A, out_eq, block_rows]
  obtain ⟨-, -, -, -, e20, e21⟩ := idx_facts t
  have ht : t.val < 128 := t.isLt.trans_eq N_0
  funext j
  obtain ⟨p, k, rfl⟩ : ∃ (p : Fin 2048) (k : Fin 512), j = ix2 p k := ⟨j 0, j 1, eq_ix2 j⟩
  rw [View.read_apply]
  have hp := p.isLt
  have hidx : ((cfg0.win 2).blk t).view.emb (ix2 p k) = (ix2 (⟨2048 * t.val + p.val, by omega⟩ : Fin 262144) k : S262144x512.Idx) := by
    funext a
    apply Fin.ext
    match a with
    | ⟨0, _⟩ => show win0_2.index t (0 : Fin 2) * 2048 + 1 * p.val = 2048 * t.val + p.val; rw [e20]; omega
    | ⟨1, _⟩ => show win0_2.index t (1 : Fin 2) * 512 + 1 * k.val = k.val; rw [e21]; omega
  rw [hidx]
  show softmaxRow (dots (iblk m c 1 t) (unitRow 0x322BCC77#32 (rowOf (iblk m c 0 t) p))) k
    = softmaxRow (dots (ofRows fun k => unitRow 0x322BCC77#32 (rowOf (m ((c : Thread nD τ).loc main_arg1)) k))
        (unitRow 0x322BCC77#32 (rowOf (m ((c : Thread nD τ).loc main_arg0)) (⟨2048 * t.val + p.val, by omega⟩ : Fin 262144)))) k
  rw [xblk_row m c t p ⟨2048 * t.val + p.val, by omega⟩ rfl, wblk_eq m c t, table_eq m c]

/-- An index of the result is in point `t`'s block iff each coordinate is in the block's range on its axis. -/
theorem mem_blk (t : Fin cfg0.N) (i : S262144x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v9).slice (win0_2.rect t)).set ↔ _
  rw [View.set_slice_whole, Rect.mem_set_unit]
  exact Iff.rfl

/-- Row `r` of the result is in the block of point `r / 2048`. -/
theorem cover (i : S262144x512.Idx) : ∃ t : Fin cfg0.N, (cfg0.win 2).flush t = true ∧ i ∈ ((cfg0.win 2).blk t).view.set := by
  have hi0 : (i 0).val < 262144 := (i 0).isLt
  have hi1 : (i 1).val < 512 := (i 1).isLt
  have hN : cfg0.N = 128 := N_0
  obtain ⟨t, ht⟩ : ∃ t : Fin cfg0.N, t.val = (i 0).val / 2048 := ⟨⟨(i 0).val / 2048, by omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; rw [e20, ht]; omega
  | ⟨1, _⟩ => show win0_2.index t (1 : Fin 2) * 512 ≤ (i 1).val ∧ (i 1).val < win0_2.index t (1 : Fin 2) * 512 + 512; rw [e21]; omega

/-- THE RESULT ARRAY after the run. -/
theorem final (c : Dev nD) : (dats m 0 c).arrAt 2 cfg0.N
    = cosineSoftmax 0x322BCC77#32 (m ((c : Thread nD τ).loc main_arg0)) (m ((c : Thread nD τ).loc main_arg1)) :=
  (dats m 0 c).arrAt_eq_of_cover 2 _ (fun t _ => flushed_eq m c t) cover

/-- The run, read: the result at the operator of the arguments, the arguments unchanged. -/
theorem run : θ_run defs (onTc (τ := τ) (main (F := Ideal))) ⟨m, fun _ => 0, ρ⟩ fun r => ∀ c : Dev nD,
      r.2.mem ((c : Thread nD τ).loc main_v9)
        = cosineSoftmax 0x322BCC77#32 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRows.lean ====
/-
  The reference, stage by stage, as arrays of rows: both operands' rows divided by their clamped lengths, the
  inner products of every row with every prototype, and the softmax of each row of scores. Its result is the
  operator `cosineSoftmax` of the two arguments.
-/
import proofs.«429801_j65927747994107_3_alg».proof.Proof.Gen.ReferenceIdeal.Read
import proofs.«429801_j65927747994107_3_alg».proof.Proof.LibCosineSoftmax

noncomputable section

namespace Cert.ReferenceIdeal.Rowwise

open Cert.ReferenceIdeal Cert.ReferenceIdeal.Gen Cert.ReferenceIdeal.Read
open Idealize.ShloMosaic Idealize.ShloMosaic.Rows Idealize.ShloMosaic.ValueIdx

/-- The printed contraction is the one over the last axis of both operands. -/
theorem dot_eq : dot_S262144x128_S512x128_S262144x512_1_1_0_0_n_n = DotDims.transposedRhs 262144 128 512 := rfl

/-- Every row of the first argument over its clamped length. -/
theorem xn_rows (x0 : (⟨S262144x128, .f32⟩ : BufTy).Contents (Elt Ideal)) :
    val_main_v4 (F := Ideal) x0 = ofRows fun i => unitRow 0x322BCC77#32 (rowOf x0 i) := by
  unfold val_main_v4 val_main_v3 val_main_v2 val_main_v1 val_main_cst val_main_v0 val_main_call0_v2 val_main_call0_v1
    val_main_call0_cst val_main_call0_v0
  exact hnormalize_eq x0 0x322BCC77#32 reducesTo_S262144x128_S262144_d1 (by decide) h_S_ bcast_S262144_S262144x1_0
    bcast_S_S262144x1 bcast_S262144x1_S262144x128_0_1

/-- Every prototype over its clamped length. -/
theorem mn_rows (x1 : (⟨S512x128, .f32⟩ : BufTy).Contents (Elt Ideal)) :
    val_main_v9 (F := Ideal) x1 = ofRows fun k => unitRow 0x322BCC77#32 (rowOf x1 k) := by
  unfold val_main_v9 val_main_v8 val_main_v7 val_main_v6 val_main_cst_0 val_main_v5 val_main_call1_v2 val_main_call1_v1
    val_main_call1_cst val_main_call1_v0
  exact hnormalize_eq x1 0x322BCC77#32 reducesTo_S512x128_S512_d1 (by decide) h_S_ bcast_S512_S512x1_0
    bcast_S_S512x1 bcast_S512x1_S512x128_0_1

/-- The cosine scores. -/
theorem scores_rows (x0 : (⟨S262144x128, .f32⟩ : BufTy).Contents (Elt Ideal)) (x1 : (⟨S512x128, .f32⟩ : BufTy).Contents (Elt Ideal)) :
    val_main_v10 (F := Ideal) x0 x1
      = ofRows fun i => dots (ofRows fun k => unitRow 0x322BCC77#32 (rowOf x1 k)) (unitRow 0x322BCC77#32 (rowOf x0 i)) := by
  unfold val_main_v10
  rw [xn_rows, mn_rows, dot_eq]
  exact hcosine_eq x0 x1 0x322BCC77#32

/-- The softmax's numerator: exp of each row of scores shifted by its maximum. -/
theorem num_rows (x0 : (⟨S262144x128, .f32⟩ : BufTy).Contents (Elt Ideal)) (x1 : (⟨S512x128, .f32⟩ : BufTy).Contents (Elt Ideal)) :
    val_main_v17 (F := Ideal) x0 x1
      = ofRows fun i k => Ideal.exp (rowOf (val_main_v10 (F := Ideal) x0 x1) i k - rowMax (rowOf (val_main_v10 (F := Ideal) x0 x1) i)) := by
  unfold val_main_v17 val_main_v16 val_main_v15 val_main_v14 val_main_v13 val_main_v12 val_main_cst_2 val_main_v11 val_main_cst_1
  exact hexpshift_eq (val_main_v10 (F := Ideal) x0 x1) reducesTo_S262144x512_S262144_d1 (by decide) h_S_ bcast_S_S262144
    bcast_S262144_S262144x1_0 bcast_S262144x1_S262144x512_0_1

/-- The reference's result is the operator of its two arguments. -/
theorem result_rows (x0 : (⟨S262144x128, .f32⟩ : BufTy).Contents (Elt Ideal)) (x1 : (⟨S512x128, .f32⟩ : BufTy).Contents (Elt Ideal)) :
    val_main_v21 (F := Ideal) x0 x1 = cosineSoftmax 0x322BCC77#32 x0 x1 := by
  unfold val_main_v21 val_main_v20 val_main_v19 val_main_v18 val_main_cst_3
  refine (hdivsum_eq (val_main_v17 (F := Ideal) x0 x1) (val_main_v17 (F := Ideal) x0 x1) reducesTo_S262144x512_S262144_d1 (by decide) h_S_
    bcast_S262144_S262144x1_0 bcast_S262144x1_S262144x512_0_1).trans ?_
  rw [num_rows, scores_rows]
  rfl

end Cert.ReferenceIdeal.Rowwise

end
-- ==== Proof.lean ====
/-
  The kernel computes, for every row x of X and every class prototype μ of muK, the cosine similarity
  ⟨x, μ⟩ / (max ‖x‖ ε · max ‖μ‖ ε) — each vector first divided by its own clamped length, then the inner product — and
  then the softmax of each row of similarities over the classes, shifted by the row maximum. The reference computes
  the same formula with the same literals. Both programs are read row by row (Proof/LibRows.lean,
  Proof/LibCosineSoftmax.lean) as the one operator `Rows.cosineSoftmax ε X muK`:
  * the kernel normalizes muK in @main before the call, normalizes a block of 2048 rows of X inside the body, takes the
    products, and stores exp (s − max s), which it loads back and stores again divided by its row sums
    (Proof/KernelBlock.lean); its 128 row blocks tile the result (Proof/KernelWhole.lean);
  * the reference normalizes both operands on the host, takes one product over the whole arrays, and joins the row
    maximum once more with −∞ (no change: a fold of max from −∞ is at least −∞) before the same softmax
    (Proof/RefRows.lean).
  No law is used that fails at an infinity — both sides are the same expression of the same sums, maxima and
  quotients —, so the precondition (finite inputs) is not opened. The ideal pass rewrote nothing, so `preserves` is
  `True`.
-/
import proofs.«429801_j65927747994107_3_alg».proof.Defs
import proofs.«429801_j65927747994107_3_alg».proof.Proof.Gen.Kernel
import proofs.«429801_j65927747994107_3_alg».proof.Proof.Gen.Kernel.Skeleton
import proofs.«429801_j65927747994107_3_alg».proof.Proof.Gen.Kernel.Launch
import proofs.«429801_j65927747994107_3_alg».proof.Proof.Gen.Kernel.Points
import proofs.«429801_j65927747994107_3_alg».proof.Proof.Gen.Kernel.Frame
import proofs.«429801_j65927747994107_3_alg».proof.Proof.Gen.KernelIdeal
import proofs.«429801_j65927747994107_3_alg».proof.Proof.Gen.KernelIdeal.Skeleton
import proofs.«429801_j65927747994107_3_alg».proof.Proof.Gen.KernelIdeal.Launch
import proofs.«429801_j65927747994107_3_alg».proof.Proof.Gen.KernelIdeal.Points
import proofs.«429801_j65927747994107_3_alg».proof.Proof.Gen.KernelIdeal.Frame
import proofs.«429801_j65927747994107_3_alg».proof.Proof.Gen.ReferenceIdeal
import proofs.«429801_j65927747994107_3_alg».proof.Proof.Gen.Pre_finite_inputs
import proofs.«429801_j65927747994107_3_alg».proof.Proof.Gen.KernelIdeal.Value
import proofs.«429801_j65927747994107_3_alg».proof.Proof.Gen.ReferenceIdeal.Run
import proofs.«429801_j65927747994107_3_alg».proof.Proof.Gen.ReferenceIdeal.Read
import proofs.«429801_j65927747994107_3_alg».proof.Proof.KernelWhole
import proofs.«429801_j65927747994107_3_alg».proof.Proof.RefRows
import Idealize.ShloMosaic.Adequacy
import Idealize.ShloMosaic.Init

noncomputable section

namespace Cert.Proof

open Idealize.ShloMosaic Idealize.SL.Sem Idealize.ShloMosaic.Rows

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both results are the softmax of the clamped cosine similarities of the two arguments. -/
theorem algebraic : Cert.algebraic_KernelIdeal_ReferenceIdeal := by
  intro m ρ m' ρ' _ hagree
  refine ⟨fun c => cosineSoftmax 0x322BCC77#32 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Rowwise.result_rows, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
